-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32 : Shape := ⟨1, ![32]⟩
abbrev S1024x4096 : Shape := ⟨2, ![1024, 4096]⟩
abbrev S4096 : Shape := ⟨1, ![4096]⟩
abbrev S16x1024x16 : Shape := ⟨3, ![16, 1024, 16]⟩
abbrev S16x16x4096 : Shape := ⟨3, ![16, 16, 4096]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S16x1024x16 : S_.BroadcastsInDim S16x1024x16 (![] : Fin 0 → Fin S16x1024x16.rank)
  reducesTo_S16x1024x16_S_d0_1_2 : S16x1024x16.ReducesTo [0, 1, 2] S_
  bcast_S_S16x16x4096 : S_.BroadcastsInDim S16x16x4096 (![] : Fin 0 → Fin S16x16x4096.rank)
  reducesTo_S16x16x4096_S_d0_1_2 : S16x16x4096.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg1 : IVec S32 32) (main_arg5 : FVec F S16x16x4096 .f32) (main_v13 : IVec S_ 1) (main_v16 : IVec S16x1024x16 1) : IVec S_ 1 :=
  let main_c_5 : IVec S_ 1 := constantI S_ 1 1#1
  let main_v17 : IVec S_ 1 := (fun x v => Host.reduce IntOp.andi x v reducesTo_S16x1024x16_S_d0_1_2 h_S_) main_v16 main_c_5
  let main_v18 : IVec S_ 1 := andi main_v13 main_v17
  let main_v19 : FVec F S16x16x4096 .f32 := Host.absf main_arg5
  let main_cst_6 : FVec F S_ .f32 := constant S_ .f32 0x7F800000#32
  let main_v20 : FVec F S16x16x4096 .f32 := broadcastInDim S16x16x4096 ![] bcast_S_S16x16x4096 main_cst_6
  let main_v21 : IVec S16x16x4096 1 := cmpf .olt main_v19 main_v20
  let main_c_7 : IVec S_ 1 := constantI S_ 1 1#1
  let main_v22 : IVec S_ 1 := (fun x v => Host.reduce IntOp.andi x v reducesTo_S16x16x4096_S_d0_1_2 h_S_) main_v21 main_c_7
  let main_v23 : IVec S_ 1 := andi main_v18 main_v22
  let main_c_8 : IVec S_ 32 := constantI S_ 32 0#32
  let main_v24 : IVec S32 32 := broadcastInDim S32 ![] bcast_S_S32 main_c_8
  let main_v25 : IVec S32 1 := cmpi .sge main_arg1 main_v24
  let main_c_9 : IVec S_ 32 := constantI S_ 32 16#32
  let main_v26 : IVec S32 32 := broadcastInDim S32 ![] bcast_S_S32 main_c_9
  let main_v27 : IVec S32 1 := cmpi .slt main_arg1 main_v26
  let main_v28 : IVec S32 1 := andi main_v25 main_v27
  let main_c_10 : IVec S_ 1 := constantI S_ 1 1#1
  let main_v29 : IVec S_ 1 := (fun x v => Host.reduce IntOp.andi x v reducesTo_S32_S_d0 h_S_) main_v28 main_c_10
  let main_v30 : IVec S_ 1 := andi main_v23 main_v29
  main_v30

def fn {F : FTy → Type} [FloatOps F] (main_arg0 : FVec F S32x512x1024 .f32) (main_arg1 : IVec S32 32) (main_arg2 : FVec F S1024x4096 .f32) (main_arg3 : FVec F S4096 .f32) (main_arg4 : FVec F S16x1024x16 .f32) (main_arg5 : FVec F S16x16x4096 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x4096 .f32 := Host.absf main_arg2
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x1024x16 .f32 := Host.absf main_arg4
  let main_cst_4 : FVec F S_ .f32 := constant S_ .f32 0x7F800000#32
  let main_v15 : FVec F S16x1024x16 .f32 := broadcastInDim S16x1024x16 ![] bcast_S_S16x1024x16 main_cst_4
  let main_v16 : IVec S16x1024x16 1 := cmpf .olt main_v14 main_v15
  fn_part1 (F := F) main_arg1 main_arg5 main_v13 main_v16
-- ==== Kernel.lean ====
abbrev S32x512x1024 : Shape := ⟨3, ![32, 512, 1024]⟩
abbrev S32 : Shape := ⟨1, ![32]⟩
abbrev S1024x4096 : Shape := ⟨2, ![1024, 4096]⟩
abbrev S4096 : Shape := ⟨1, ![4096]⟩
abbrev S16x1024x16 : Shape := ⟨3, ![16, 1024, 16]⟩
abbrev S16x16x4096 : Shape := ⟨3, ![16, 16, 4096]⟩
abbrev S1x4096 : Shape := ⟨2, ![1, 4096]⟩
abbrev S32x512x4096 : Shape := ⟨3, ![32, 512, 4096]⟩
abbrev S1x128x1024 : Shape := ⟨3, ![1, 128, 1024]⟩
abbrev S1x1024x16 : Shape := ⟨3, ![1, 1024, 16]⟩
abbrev S1 : Shape := ⟨1, ![1]⟩
abbrev S1x16x4096 : Shape := ⟨3, ![1, 16, 4096]⟩
abbrev S1x128x4096 : Shape := ⟨3, ![1, 128, 4096]⟩
abbrev S128x1024 : Shape := ⟨2, ![128, 1024]⟩
abbrev S128x4096 : Shape := ⟨2, ![128, 4096]⟩
abbrev S1024x16 : Shape := ⟨2, ![1024, 16]⟩
abbrev S128x16 : Shape := ⟨2, ![128, 16]⟩
abbrev S16x4096 : Shape := ⟨2, ![16, 4096]⟩

abbrev nBuf : Space → Nat
  | .hbm => 7
  | .vmem => 10
  | .smem => 1
  | _ => 0

abbrev bufTy : (tb : Table) → Fin (tcTables nBuf tb) → BufTy
  | .hbm, ⟨0, _⟩ => ⟨S32x512x1024, .f32⟩
  | .hbm, ⟨1, _⟩ => ⟨S1024x4096, .f32⟩
  | .hbm, ⟨2, _⟩ => ⟨S4096, .f32⟩
  | .hbm, ⟨3, _⟩ => ⟨S16x1024x16, .f32⟩
  | .hbm, ⟨4, _⟩ => ⟨S16x16x4096, .f32⟩
  | .hbm, ⟨5, _⟩ => ⟨S1x4096, .f32⟩
  | .hbm, ⟨6, _⟩ => ⟨S32x512x4096, .f32⟩
  | .local _ .vmem, ⟨0, _⟩ => ⟨S1x128x1024, .f32⟩
  | .local _ .vmem, ⟨1, _⟩ => ⟨S1x128x1024, .f32⟩
  | .local _ .vmem, ⟨2, _⟩ => ⟨S1024x4096, .f32⟩
  | .local _ .vmem, ⟨3, _⟩ => ⟨S1x4096, .f32⟩
  | .local _ .vmem, ⟨4, _⟩ => ⟨S1x1024x16, .f32⟩
  | .local _ .vmem, ⟨5, _⟩ => ⟨S1x1024x16, .f32⟩
  | .local _ .vmem, ⟨6, _⟩ => ⟨S1x16x4096, .f32⟩
  | .local _ .vmem, ⟨7, _⟩ => ⟨S1x16x4096, .f32⟩
  | .local _ .vmem, ⟨8, _⟩ => ⟨S1x128x4096, .f32⟩
  | .local _ .vmem, ⟨9, _⟩ => ⟨S1x128x4096, .f32⟩
  | .local _ .smem, ⟨0, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4096_S1x4096 : S4096.ShapeCasts S1x4096
  numel1_S1 : S1.numel = 1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1024x4096_S1024x4096_0_0 : ∀ a, (![0, 0] : Fin 2 → Nat) a + S1024x4096.size a ≤ S1024x4096.size a
  h_S1024x4096 : 0 < S1024x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  dot_S128x1024_S1024x4096_S128x4096_1_0_0_1_n_n_wf : DotDims.WF S128x1024 S1024x4096 S128x4096 [1] [0] [0] [1] [] []
  dot_S128x1024_S1024x16_S128x16_1_0_0_1_n_n_wf : DotDims.WF S128x1024 S1024x16 S128x16 [1] [0] [0] [1] [] []
  dot_S128x16_S16x4096_S128x4096_1_0_0_1_n_n_wf : DotDims.WF S128x16 S16x4096 S128x4096 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S32x512x1024.size a
  hwx0_0 : ∀ i : grid0.Coords, EltTy.bits .f32 = 32 ∨ (Rect.block (s := S32x512x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x4096.size a ≤ S32x512x4096.size a
  hwx0_5 : ∀ i : grid0.Coords, EltTy.bits .f32 = 32 ∨ (Rect.block (s := S32x512x4096) S1x128x4096.size (cc0_transform_5 i) (hinb0_5 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x16_S128x16_1_0_0_1_n_n : DotDims S128x1024 S1024x16 S128x16 where
  lhsContracting := [1]
  rhsContracting := [0]
  lhsNonContracting := [0]
  rhsNonContracting := [1]
  lhsBatch := []
  rhsBatch := []
  wf := dot_S128x1024_S1024x16_S128x16_1_0_0_1_n_n_wf
def dot_S128x16_S16x4096_S128x4096_1_0_0_1_n_n : DotDims S128x16 S16x4096 S128x4096 where
  lhsContracting := [1]
  rhsContracting := [0]
  lhsNonContracting := [0]
  rhsNonContracting := [1]
  lhsBatch := []
  rhsBatch := []
  wf := dot_S128x16_S16x4096_S128x4096_1_0_0_1_n_n_wf

abbrev spec0_0 : Pipeline.WinSpec sig grid0.rank :=
  Pipeline.WinSpec.ofSpec (Memref.whole main_arg0) S1x128x1024.size reads0_0 false false 2 stage0_0 sem0_0 nbuf0_0 hstage0_0

abbrev spec0_1 : Pipeline.WinSpec sig grid0.rank :=
  Pipeline.WinSpec.ofSpec (Memref.whole main_arg2) S1024x4096.size reads0_1 false true 1 stage0_1 sem0_1 nbuf0_1 hstage0_1

abbrev spec0_2 : Pipeline.WinSpec sig grid0.rank :=
  Pipeline.WinSpec.ofSpec (Memref.whole main_v0) S1x4096.size reads0_2 false true 1 stage0_2 sem0_2 nbuf0_2 hstage0_2

abbrev spec0_3 : Pipeline.WinSpec sig grid0.rank :=
  Pipeline.WinSpec.ofSpec (Memref.whole main_arg4) S1x1024x16.size reads0_3 false false 2 stage0_3 sem0_3 nbuf0_3 hstage0_3

abbrev spec0_4 : Pipeline.WinSpec sig grid0.rank :=
  Pipeline.WinSpec.ofSpec (Memref.whole main_arg5) S1x16x4096.size reads0_4 false false 2 stage0_4 sem0_4 nbuf0_4 hstage0_4

abbrev spec0_5 : Pipeline.WinSpec sig grid0.rank :=
  Pipeline.WinSpec.ofSpec (Memref.whole main_v1) S1x128x4096.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x1024x16.size a ≤ S16x1024x16.size a), EltTy.bits .f32 = 32 ∨ (Rect.block (s := S16x1024x16) S1x1024x16.size (cc0_transform_3 k0_off1_inb numel1_S1 pf i) h).WholeWords (EltTy.packing .f32)) ∧
  (∀ i : grid0.Coords, ∃ h : (∀ a, (cc0_transform_4 k0_off1_inb numel1_S1 pf i a + 1) * S1x16x4096.size a ≤ S16x16x4096.size a), EltTy.bits .f32 = 32 ∨ (Rect.block (s := S16x16x4096) S1x16x4096.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok.1 i).elim fun h _ => h a | 4 => fun i a => (hok.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok.1 i).elim fun _ h => h | 4 => fun i => (hok.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S32 : Shape := ⟨1, ![32]⟩
abbrev S1024x4096 : Shape := ⟨2, ![1024, 4096]⟩
abbrev S4096 : Shape := ⟨1, ![4096]⟩
abbrev S16x1024x16 : Shape := ⟨3, ![16, 1024, 16]⟩
abbrev S16x16x4096 : Shape := ⟨3, ![16, 16, 4096]⟩
abbrev S32x512x4096 : Shape := ⟨3, ![32, 512, 4096]⟩
abbrev S1x1x4096 : Shape := ⟨3, ![1, 1, 4096]⟩
abbrev S_ : Shape := ⟨0, ![]⟩
abbrev S32x1 : Shape := ⟨2, ![32, 1]⟩
abbrev S32x1024x16 : Shape := ⟨3, ![32, 1024, 16]⟩
abbrev S32x16x4096 : Shape := ⟨3, ![32, 16, 4096]⟩
abbrev S32x512x16 : Shape := ⟨3, ![32, 512, 16]⟩

abbrev nBuf : Space → Nat
  | .hbm => 34
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S1024x4096, .f32⟩
  | .hbm, ⟨3, _⟩ => ⟨S4096, .f32⟩
  | .hbm, ⟨4, _⟩ => ⟨S16x1024x16, .f32⟩
  | .hbm, ⟨5, _⟩ => ⟨S16x16x4096, .f32⟩
  | .hbm, ⟨6, _⟩ => ⟨S32x512x4096, .f32⟩
  | .hbm, ⟨7, _⟩ => ⟨S1x1x4096, .f32⟩
  | .hbm, ⟨8, _⟩ => ⟨S32x512x4096, .f32⟩
  | .hbm, ⟨9, _⟩ => ⟨S32x512x4096, .f32⟩
  | .hbm, ⟨10, _⟩ => ⟨S_, .i32⟩
  | .hbm, ⟨11, _⟩ => ⟨S32, .i32⟩
  | .hbm, ⟨12, _⟩ => ⟨S32, .i1⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S32x1, .i32⟩
  | .hbm, ⟨18, _⟩ => ⟨S32x1024x16, .f32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S32x16x4096, .f32⟩
  | .hbm, ⟨28, _⟩ => ⟨S32x512x16, .f32⟩
  | .hbm, ⟨29, _⟩ => ⟨S32x512x4096, .f32⟩
  | .hbm, ⟨30, _⟩ => ⟨S_, .f32⟩
  | .hbm, ⟨31, _⟩ => ⟨S32x512x4096, .f32⟩
  | .hbm, ⟨32, _⟩ => ⟨S32x512x4096, .f32⟩
  | .hbm, ⟨33, _⟩ => ⟨S32x512x4096, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S32x512x4096_0_1_2 : S1x1x4096.BroadcastsInDim S32x512x4096 (![0, 1, 2] : Fin 3 → Fin S32x512x4096.rank)
  bcast_S_S32 : S_.BroadcastsInDim S32 (![] : Fin 0 → Fin S32.rank)
  bcast_S32_S32x1_0 : S32.BroadcastsInDim S32x1 (![0] : Fin 1 → Fin S32x1.rank)
  bcast_S_S32x512x4096 : S_.BroadcastsInDim S32x512x4096 (![] : Fin 0 → Fin S32x512x4096.rank)
  dot_S32x512x1024_S1024x4096_S32x512x4096_2_0_01_1_n_n_wf : DotDims.WF S32x512x1024 S1024x4096 S32x512x4096 [2] [0] [0, 1] [1] [] []
  gather_S16x1024x16_S32x1_S32x1024x16_12_0_n_n_0_1_1102416_wf : GatherDims.WF S16x1024x16 S32x1 S32x1024x16 [1, 2] [0] [] [0] [] 1 ![1, 1024, 16]
  gather_S16x16x4096_S32x1_S32x16x4096_12_0_n_n_0_1_1164096_wf : GatherDims.WF S16x16x4096 S32x1 S32x16x4096 [1, 2] [0] [] [0] [] 1 ![1, 16, 4096]
  dot_S32x512x1024_S32x1024x16_S32x512x16_2_1_1_2_0_0_wf : DotDims.WF S32x512x1024 S32x1024x16 S32x512x16 [2] [1] [1] [2] [0] [0]
  dot_S32x512x16_S32x16x4096_S32x512x4096_2_1_1_2_0_0_wf : DotDims.WF S32x512x16 S32x16x4096 S32x512x4096 [2] [1] [1] [2] [0] [0]

variable [Facts₀]

def dot_S32x512x1024_S1024x4096_S32x512x4096_2_0_01_1_n_n : DotDims S32x512x1024 S1024x4096 S32x512x4096 where
  lhsContracting := [2]
  rhsContracting := [0]
  lhsNonContracting := [0, 1]
  rhsNonContracting := [1]
  lhsBatch := []
  rhsBatch := []
  wf := dot_S32x512x1024_S1024x4096_S32x512x4096_2_0_01_1_n_n_wf
def gather_S16x1024x16_S32x1_S32x1024x16_12_0_n_n_0_1_1102416 : GatherDims S16x1024x16 S32x1 S32x1024x16 where
  offsetDims := [1, 2]
  collapsedSliceDims := [0]
  operandBatchingDims := []
  startIndicesBatchingDims := []
  startIndexMap := [0]
  indexVectorDim := 1
  sliceSizes := ![1, 1024, 16]
  wf := gather_S16x1024x16_S32x1_S32x1024x16_12_0_n_n_0_1_1102416_wf
def gather_S16x16x4096_S32x1_S32x16x4096_12_0_n_n_0_1_1164096 : GatherDims S16x16x4096 S32x1 S32x16x4096 where
  offsetDims := [1, 2]
  collapsedSliceDims := [0]
  operandBatchingDims := []
  startIndicesBatchingDims := []
  startIndexMap := [0]
  indexVectorDim := 1
  sliceSizes := ![1, 16, 4096]
  wf := gather_S16x16x4096_S32x1_S32x16x4096_12_0_n_n_0_1_1164096_wf
def dot_S32x512x1024_S32x1024x16_S32x512x16_2_1_1_2_0_0 : DotDims S32x512x1024 S32x1024x16 S32x512x16 where
  lhsContracting := [2]
  rhsContracting := [1]
  lhsNonContracting := [1]
  rhsNonContracting := [2]
  lhsBatch := [0]
  rhsBatch := [0]
  wf := dot_S32x512x1024_S32x1024x16_S32x512x16_2_1_1_2_0_0_wf
def dot_S32x512x16_S32x16x4096_S32x512x4096_2_1_1_2_0_0 : DotDims S32x512x16 S32x16x4096 S32x512x4096 where
  lhsContracting := [2]
  rhsContracting := [1]
  lhsNonContracting := [1]
  rhsNonContracting := [2]
  lhsBatch := [0]
  rhsBatch := [0]
  wf := dot_S32x512x16_S32x16x4096_S32x512x4096_2_1_1_2_0_0_wf

class Facts : Prop extends Facts₀ where

variable [Facts]
-- ==== Proof.PreDecode.lean ====
/-
  The precondition read back: when the printed predicate is all ones, every adapter identifier is in [0, 16).

  The predicate is a conjunction of `all`-reductions; its last conjunct reduces, over the 32 identifiers, the bit
  "0 ≤ id and id < 16" (signed comparisons against the splat constants 0 and 16).  A conjunction that is one has
  each conjunct one, and an `all`-reduction that is one had a one at every index.
-/
import proofs.«416401_j16707422781874_2_alg».proof.Pre_finite_inputs
import proofs.«416401_j16707422781874_2_alg».proof.Proof.Gen.Pre_finite_inputs
import Idealize.ShloMosaic.Lib.ReduceAll
import Idealize.ShloMosaic.Lib.ValueIdx

noncomputable section

namespace Cert.RoutedLora.PreDecode

open Idealize.ShloMosaic Idealize.ShloMosaic.ValueIdx Cert.Pre_finite_inputs

instance : Subsingleton S_.Idx := ⟨fun a b => funext fun d => d.elim0⟩

/-- Under the precondition every identifier, read signed, lies in [0, 16). -/
theorem ids_in_range {F : FTy → Type} [FloatOps F] (a0 : FVec F S32x512x1024 .f32) (ids : IVec S32 32)
    (a2 : FVec F S1024x4096 .f32) (a3 : FVec F S4096 .f32) (a4 : FVec F S16x1024x16 .f32) (a5 : FVec F S16x16x4096 .f32)
    (h : fn (F := F) a0 ids a2 a3 a4 a5 = fun _ => 1#1) (i : S32.Idx) :
    0 ≤ (ids i).toInt ∧ (ids i).toInt < 16 := by
  have e := congrFun h ix0
  dsimp only [fn, fn_part1] at e
  have e2 := (IntOp.andi_eq_one.1 e).2
  have e3 := Host.reduce_andi_all _ _ _ _ _ e2 i
  obtain ⟨hge, hlt⟩ := IntOp.andi_eq_one.1 e3
  have hge' := IntOp.cmpi_sge.1 hge
  have hlt' := IntOp.cmpi_slt.1 hlt
  exact ⟨hge', hlt'⟩

end Cert.RoutedLora.PreDecode

end
-- ==== Proof.TableOk.lean ====
/-
  The launch's side condition on the prefetched table follows from the precondition.

  The index maps of the two adapter windows read the table word ids[b] as the block index along the adapter axis
  (extent 16, block size 1), the other two block indices being 0 with the block as large as the array there.  So the
  block lies inside its array exactly when the word, read unsigned, is below 16; and a word whose signed value lies in
  [0, 16) is that small unsigned.  The transfers are of a word-wide type.  Stated for the program as printed and for its
  idealization: the two have the same windows.
-/
import proofs.«416401_j16707422781874_2_alg».proof.Defs
import proofs.«416401_j16707422781874_2_alg».proof.Proof.Gen.Kernel.Frame
import proofs.«416401_j16707422781874_2_alg».proof.Proof.Gen.KernelIdeal.Frame
import proofs.«416401_j16707422781874_2_alg».proof.Proof.PreDecode

set_option maxRecDepth 16384

noncomputable section

namespace Cert.RoutedLora

/-- A 32-bit word whose signed value lies in [0, 16) is below 16 read unsigned. -/
theorem toNat_lt_of_toInt (w : BitVec 32) (h0 : 0 ≤ w.toInt) (h1 : w.toInt < 16) : w.toNat < 16 := by
  have hlt := w.isLt
  rw [BitVec.toInt_eq_toNat_cond] at h0 h1
  split at h1 <;> omega

end Cert.RoutedLora

namespace Cert.KernelIdeal.TableOk

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The table the region reads is the identifier array as launched. -/
theorem tbl_eq : tbl m 0 = m (((0 : Dev nD) : Thread nD τ).loc main_arg1) := V_main_arg1 m 0

/-- With every identifier below 16 unsigned, both adapter windows' blocks lie inside their arrays at every point. -/
theorem ok_of_range (h : ∀ i, (m (((0 : Dev nD) : Thread nD τ).loc main_arg1) i).toNat < 16) : Ok m := by
  have hl : ∀ x, (tbl m 0 x).toNat < 16 := fun x => by rw [tbl_eq]; exact h x
  refine ⟨fun i => ?_, fun i => ?_⟩
  · obtain ⟨w, hw, e⟩ : ∃ w : BitVec 32, w.toNat < 16 ∧ cc0_transform_3 k0_off1_inb numel1_S1 (tbl m) i = ![w.toNat, 0, 0] :=
      ⟨_, hl _, rfl⟩
    refine ⟨fun a => ?_, Or.inl rfl⟩
    rw [e]
    fin_cases a <;> simp [S1x1024x16, S16x1024x16] <;> omega
  · obtain ⟨w, hw, e⟩ : ∃ w : BitVec 32, w.toNat < 16 ∧ cc0_transform_4 k0_off1_inb numel1_S1 (tbl m) i = ![w.toNat, 0, 0] :=
      ⟨_, hl _, rfl⟩
    refine ⟨fun a => ?_, Or.inl rfl⟩
    rw [e]
    fin_cases a <;> simp [S1x16x4096, S16x16x4096] <;> omega

end Cert.KernelIdeal.TableOk

namespace Cert.Kernel.TableOk

open Cert.Kernel Cert.Kernel.Gen
open Idealize.ShloMosaic Idealize.ShloMosaic.TcCoe Idealize.SL.Sem

variable {F : FTy → Type} [FloatOps F] (m : (ℓ : Loc nD τ sig) → Buf (Elt F) ℓ)

/-- The table the region reads is the identifier array as launched. -/
theorem tbl_eq : tbl m 0 = m (((0 : Dev nD) : Thread nD τ).loc main_arg1) := V_main_arg1 m 0

/-- With every identifier below 16 unsigned, both adapter windows' blocks lie inside their arrays at every point. -/
theorem ok_of_range (h : ∀ i, (m (((0 : Dev nD) : Thread nD τ).loc main_arg1) i).toNat < 16) : Ok m := by
  have hl : ∀ x, (tbl m 0 x).toNat < 16 := fun x => by rw [tbl_eq]; exact h x
  refine ⟨fun i => ?_, fun i => ?_⟩
  · obtain ⟨w, hw, e⟩ : ∃ w : BitVec 32, w.toNat < 16 ∧ cc0_transform_3 k0_off1_inb numel1_S1 (tbl m) i = ![w.toNat, 0, 0] :=
      ⟨_, hl _, rfl⟩
    refine ⟨fun a => ?_, Or.inl rfl⟩
    rw [e]
    fin_cases a <;> simp [S1x1024x16, S16x1024x16] <;> omega
  · obtain ⟨w, hw, e⟩ : ∃ w : BitVec 32, w.toNat < 16 ∧ cc0_transform_4 k0_off1_inb numel1_S1 (tbl m) i = ![w.toNat, 0, 0] :=
      ⟨_, hl _, rfl⟩
    refine ⟨fun a => ?_, Or.inl rfl⟩
    rw [e]
    fin_cases a <;> simp [S1x16x4096, S16x16x4096] <;> omega

end Cert.Kernel.TableOk

namespace Cert.RoutedLora

open Idealize.ShloMosaic Idealize.ShloMosaic.TcCoe Idealize.SL.Sem

/-- Under the precondition the idealized program's launch memory has every identifier in [0, 16), read signed. -/
theorem range_of_pre_ideal (m : (ℓ : Loc Cert.KernelIdeal.nD Cert.KernelIdeal.τ Cert.KernelIdeal.sig) → Buf (Elt Ideal) ℓ)
    (h : Cert.Pre_KernelIdeal m) (i : Cert.KernelIdeal.S32.Idx) :
    0 ≤ (m (((0 : Dev Cert.KernelIdeal.nD) : Thread Cert.KernelIdeal.nD Cert.KernelIdeal.τ).loc Cert.KernelIdeal.main_arg1) i).toInt
      ∧ (m (((0 : Dev Cert.KernelIdeal.nD) : Thread Cert.KernelIdeal.nD Cert.KernelIdeal.τ).loc Cert.KernelIdeal.main_arg1) i).toInt < 16 :=
  PreDecode.ids_in_range _ _ _ _ _ _ (h 0) i

/-- The same for the program as printed, at the word-level instance. -/
theorem range_of_pre_bits (m : (ℓ : Loc Cert.Kernel.nD Cert.Kernel.τ Cert.Kernel.sig) → Buf (Elt Bits) ℓ)
    (h : Cert.Pre_Kernel m) (i : Cert.Kernel.S32.Idx) :
    0 ≤ (m (((0 : Dev Cert.Kernel.nD) : Thread Cert.Kernel.nD Cert.Kernel.τ).loc Cert.Kernel.main_arg1) i).toInt
      ∧ (m (((0 : Dev Cert.Kernel.nD) : Thread Cert.Kernel.nD Cert.Kernel.τ).loc Cert.Kernel.main_arg1) i).toInt < 16 :=
  PreDecode.ids_in_range _ _ _ _ _ _ (h 0) i

theorem ok_of_pre_ideal (m : (ℓ : Loc Cert.KernelIdeal.nD Cert.KernelIdeal.τ Cert.KernelIdeal.sig) → Buf (Elt Ideal) ℓ)
    (h : Cert.Pre_KernelIdeal m) : Cert.KernelIdeal.Gen.Ok m :=
  Cert.KernelIdeal.TableOk.ok_of_range m fun i =>
    toNat_lt_of_toInt _ (range_of_pre_ideal m h i).1 (range_of_pre_ideal m h i).2

theorem ok_of_pre_bits (m : (ℓ : Loc Cert.Kernel.nD Cert.Kernel.τ Cert.Kernel.sig) → Buf (Elt Bits) ℓ)
    (h : Cert.Pre_Kernel m) : Cert.Kernel.Gen.Ok m :=
  Cert.Kernel.TableOk.ok_of_range m fun i =>
    toNat_lt_of_toInt _ (range_of_pre_bits m h i).1 (range_of_pre_bits m h i).2

end Cert.RoutedLora

end
-- ==== Proof.Spec.lean ====
/-
  The routed low-rank-adapter layer as one function of its arguments, entry by entry, over the extended reals.

  For a batch row b whose adapter is g, sequence position s and output column o,

    out[b, s, o] = (Σ_i h[b, s, i] · W[i, o] + bias[o]) + (Σ_r (Σ_i h[b, s, i] · A[g, i, r]) · B[g, r, o]) · one

  where `one` is the scaling factor alpha / rank as the binary32 word both programs carry.  The low-rank term is
  kept as the two nested sums both programs compute (first onto the rank axis, then onto the output axis); nothing is
  distributed or regrouped, so the equality of the two programs needs no finiteness of the inputs.
-/
import Idealize.ShloMosaic.PureOps.Ideal
import Idealize.ShloMosaic.Lib.ValueIdx

noncomputable section

namespace Cert.RoutedLora

open Idealize.ShloMosaic Idealize.ShloMosaic.ValueIdx
open scoped BigOperators

abbrev SH : Shape := ⟨3, ![32, 512, 1024]⟩
abbrev SW : Shape := ⟨2, ![1024, 4096]⟩
abbrev SBias : Shape := ⟨1, ![4096]⟩
abbrev SA : Shape := ⟨3, ![16, 1024, 16]⟩
abbrev SB : Shape := ⟨3, ![16, 16, 4096]⟩
abbrev SOut : Shape := ⟨3, ![32, 512, 4096]⟩
abbrev SIds : Shape := ⟨1, ![32]⟩

/-- The scaling factor alpha / rank = 16 / 16 as both programs carry it: the binary32 word of 1.0. -/
abbrev one : Ideal .f32 := Ideal.ofBits .f32 0x3F800000#32

/-- The layer's entry (b, s, o) when batch row b is routed to adapter g. -/
def routedAt (h : FVec Ideal SH .f32) (W : FVec Ideal SW .f32) (bias : FVec Ideal SBias .f32)
    (A : FVec Ideal SA .f32) (B : FVec Ideal SB .f32) (g : Fin 16) (b : Fin 32) (s : Fin 512) (o : Fin 4096) : Ideal .f32 :=
  ((∑ i : Fin 1024, h (ix3 b s i) * W (ix2 i o)) + bias (ix1 o))
    + (∑ r : Fin 16, (∑ i : Fin 1024, h (ix3 b s i) * A (ix3 g i r)) * B (ix3 g r o)) * one

/-- The adapter a batch row is routed to: its identifier read as a signed word and clamped into [0, 15] (for an
    identifier already in range, the identifier itself). -/
def adapterOf (ids : IVec SIds 32) (b : Fin 32) : Fin 16 :=
  ⟨min (ids (ix1 b)).toInt.toNat 15, by omega⟩

/-- The whole result array. -/
def routed (h : FVec Ideal SH .f32) (ids : IVec SIds 32) (W : FVec Ideal SW .f32) (bias : FVec Ideal SBias .f32)
    (A : FVec Ideal SA .f32) (B : FVec Ideal SB .f32) : FVec Ideal SOut .f32 :=
  fun j => routedAt h W bias A B (adapterOf ids ⟨(j 0).val, (j 0).isLt⟩) ⟨(j 0).val, (j 0).isLt⟩ ⟨(j 1).val, (j 1).isLt⟩
    ⟨(j 2).val, (j 2).isLt⟩

theorem routed_ix3 (h : FVec Ideal SH .f32) (ids : IVec SIds 32) (W : FVec Ideal SW .f32) (bias : FVec Ideal SBias .f32)
    (A : FVec Ideal SA .f32) (B : FVec Ideal SB .f32) (b : Fin 32) (s : Fin 512) (o : Fin 4096) :
    routed h ids W bias A B (ix3 b s o) = routedAt h W bias A B (adapterOf ids b) b s o := rfl

/-- An identifier in [0, 16) read signed is its own unsigned value, which the clamp leaves alone. -/
theorem adapterOf_val (ids : IVec SIds 32) (b : Fin 32) (h0 : 0 ≤ (ids (ix1 b)).toInt) (h1 : (ids (ix1 b)).toInt < 16) :
    (adapterOf ids b).val = (ids (ix1 b)).toNat := by
  show min (ids (ix1 b)).toInt.toNat 15 = _
  have hlt := (ids (ix1 b)).isLt
  rw [BitVec.toInt_eq_toNat_cond] at h0 h1 ⊢
  split at h1 <;> omega

end Cert.RoutedLora

end
-- ==== Proof.LibMatmulPrec.lean ====
/-
  A matrix product with ONE contracted axis, into the zero accumulator, read at an entry of a rank-two result — for
  ANY contraction precision the operation carries (over the extended reals the precision does not enter the value).

  At entry (p, n) the product is the sum over the contracted coordinate k of the left operand at L k times the right
  operand at R k, once the operand indices at the contraction position whose one coordinate is k are known to be
  L k and R k (whatever the operands' shapes and whichever of their axes is contracted).
-/
import Idealize.ShloMosaic.Lib.Pipeline.Value
import Idealize.ShloMosaic.Lib.ValueIdx
import Idealize.ShloMosaic.PureOps.Ideal.Laws

noncomputable section

namespace Cert.LibMatmulPrec

open Idealize.ShloMosaic Idealize.ShloMosaic.ValueIdx
open scoped BigOperators

/-- A product with one contracted axis of extent K at any precision `prec`, into the zero accumulator, at entry
    (p, n): the sum over k of the left operand at L k times the right at R k. -/
theorem matmul_zero_ix2_prec {sl sr : Shape} {M N K : ℕ} (D : DotDims sl sr ⟨2, ![M, N]⟩) (prec : Option ContractPrecision)
    (hr : D.contr.rank = 1) (hs : D.contr.size ⟨0, by omega⟩ = K) (l : FVec Ideal sl .f32) (r : FVec Ideal sr .f32)
    (p : Fin M) (n : Fin N) (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D prec l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

end Cert.LibMatmulPrec

end
-- ==== Proof.Block.lean ====
/-
  What the kernel body stores, read at one entry, over the extended reals.

  The body loads a [1,128,1024] block x of hidden states, the whole weight matrix w, the bias row, one adapter's
  [1,1024,16] down-projection a and [1,16,4096] up-projection b, and stores the [1,128,4096] block

      (x · w + bias) + ((x · a) · b) · one .

  Each of the three products runs into a zero accumulator with one contracted axis, so at an entry it is a plain
  sum over the contracted coordinate; the unit leading axes come and go by shape casts that keep the row-major
  position; the bias row is broadcast down the 128 rows.
-/
import proofs.«416401_j16707422781874_2_alg».proof.Proof.Gen.KernelIdeal.Skeleton
import proofs.«416401_j16707422781874_2_alg».proof.Proof.LibMatmulPrec
import proofs.«416401_j16707422781874_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx
open scoped BigOperators

/-! ## The operand indices of the three products, coordinate by coordinate -/

theorem lhs_base_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide),
    dif_pos (show (0 : Fin S128x1024.rank) ∈ dot_S128x1024_S1024x4096_S128x4096_1_0_0_1_n_n.lhsNonContracting by decide)]
  rfl
theorem lhs_base_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_base_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_base_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide),
    dif_pos (show (1 : Fin S1024x4096.rank) ∈ dot_S128x1024_S1024x4096_S128x4096_1_0_0_1_n_n.rhsNonContracting by decide)]
  rfl

theorem lhs_down_0 (i : S128x16.Idx) (q : dot_S128x1024_S1024x16_S128x16_1_0_0_1_n_n.contr.Idx) :
    (dot_S128x1024_S1024x16_S128x16_1_0_0_1_n_n.lhsIdx i q 0).val = (i 0).val := by
  unfold DotDims.lhsIdx
  rw [dif_neg (show ¬(0 : Fin S128x1024.rank) ∈ dot_S128x1024_S1024x16_S128x16_1_0_0_1_n_n.lhsBatch by decide),
    dif_pos (show (0 : Fin S128x1024.rank) ∈ dot_S128x1024_S1024x16_S128x16_1_0_0_1_n_n.lhsNonContracting by decide)]
  rfl
theorem lhs_down_1 (i : S128x16.Idx) (q : dot_S128x1024_S1024x16_S128x16_1_0_0_1_n_n.contr.Idx) :
    (dot_S128x1024_S1024x16_S128x16_1_0_0_1_n_n.lhsIdx i q 1).val = (q ⟨0, by decide⟩).val :=
  dot_S128x1024_S1024x16_S128x16_1_0_0_1_n_n.lhsIdx_val_of_single rfl i q
theorem rhs_down_0 (i : S128x16.Idx) (q : dot_S128x1024_S1024x16_S128x16_1_0_0_1_n_n.contr.Idx) :
    (dot_S128x1024_S1024x16_S128x16_1_0_0_1_n_n.rhsIdx i q 0).val = (q ⟨0, by decide⟩).val :=
  dot_S128x1024_S1024x16_S128x16_1_0_0_1_n_n.rhsIdx_val_of_single rfl i q
theorem rhs_down_1 (i : S128x16.Idx) (q : dot_S128x1024_S1024x16_S128x16_1_0_0_1_n_n.contr.Idx) :
    (dot_S128x1024_S1024x16_S128x16_1_0_0_1_n_n.rhsIdx i q 1).val = (i 1).val := by
  unfold DotDims.rhsIdx
  rw [dif_neg (show ¬(1 : Fin S1024x16.rank) ∈ dot_S128x1024_S1024x16_S128x16_1_0_0_1_n_n.rhsBatch by decide),
    dif_pos (show (1 : Fin S1024x16.rank) ∈ dot_S128x1024_S1024x16_S128x16_1_0_0_1_n_n.rhsNonContracting by decide)]
  rfl

theorem lhs_up_0 (i : S128x4096.Idx) (q : dot_S128x16_S16x4096_S128x4096_1_0_0_1_n_n.contr.Idx) :
    (dot_S128x16_S16x4096_S128x4096_1_0_0_1_n_n.lhsIdx i q 0).val = (i 0).val := by
  unfold DotDims.lhsIdx
  rw [dif_neg (show ¬(0 : Fin S128x16.rank) ∈ dot_S128x16_S16x4096_S128x4096_1_0_0_1_n_n.lhsBatch by decide),
    dif_pos (show (0 : Fin S128x16.rank) ∈ dot_S128x16_S16x4096_S128x4096_1_0_0_1_n_n.lhsNonContracting by decide)]
  rfl
theorem lhs_up_1 (i : S128x4096.Idx) (q : dot_S128x16_S16x4096_S128x4096_1_0_0_1_n_n.contr.Idx) :
    (dot_S128x16_S16x4096_S128x4096_1_0_0_1_n_n.lhsIdx i q 1).val = (q ⟨0, by decide⟩).val :=
  dot_S128x16_S16x4096_S128x4096_1_0_0_1_n_n.lhsIdx_val_of_single rfl i q
theorem rhs_up_0 (i : S128x4096.Idx) (q : dot_S128x16_S16x4096_S128x4096_1_0_0_1_n_n.contr.Idx) :
    (dot_S128x16_S16x4096_S128x4096_1_0_0_1_n_n.rhsIdx i q 0).val = (q ⟨0, by decide⟩).val :=
  dot_S128x16_S16x4096_S128x4096_1_0_0_1_n_n.rhsIdx_val_of_single rfl i q
theorem rhs_up_1 (i : S128x4096.Idx) (q : dot_S128x16_S16x4096_S128x4096_1_0_0_1_n_n.contr.Idx) :
    (dot_S128x16_S16x4096_S128x4096_1_0_0_1_n_n.rhsIdx i q 1).val = (i 1).val := by
  unfold DotDims.rhsIdx
  rw [dif_neg (show ¬(1 : Fin S16x4096.rank) ∈ dot_S128x16_S16x4096_S128x4096_1_0_0_1_n_n.rhsBatch by decide),
    dif_pos (show (1 : Fin S16x4096.rank) ∈ dot_S128x16_S16x4096_S128x4096_1_0_0_1_n_n.rhsNonContracting by decide)]
  rfl

/-! ## The three products at an entry -/

/-- [128,1024] times [1024,4096] into zeros, at (p, q): the row p of the left against the column q of the right. -/
theorem base_apply (x : FVec Ideal S128x1024 .f32) (w : FVec Ideal S1024x4096 .f32) (p : Fin 128) (q : Fin 4096) :
    matmul dot_S128x1024_S1024x4096_S128x4096_1_0_0_1_n_n (some .fp32) x w (constant (F := Ideal) S128x4096 .f32 0x00000000#32) (ix2 p q)
      = ∑ k : Fin 1024, x (ix2 p k) * w (ix2 k q) :=
  Cert.LibMatmulPrec.matmul_zero_ix2_prec dot_S128x1024_S1024x4096_S128x4096_1_0_0_1_n_n (some .fp32) rfl rfl x w p q
    (fun k => ix2 p k) (fun k => ix2 k q)
    (fun k q' hq => funext fun a => Fin.ext (by
      match a with
      | ⟨0, _⟩ => exact lhs_base_0 _ _
      | ⟨1, _⟩ => exact (lhs_base_1 _ _).trans hq))
    (fun k q' hq => funext fun a => Fin.ext (by
      match a with
      | ⟨0, _⟩ => exact (rhs_base_0 _ _).trans hq
      | ⟨1, _⟩ => exact rhs_base_1 _ _))

/-- [128,1024] times [1024,16] into zeros, at (p, r). -/
theorem down_apply (x : FVec Ideal S128x1024 .f32) (a : FVec Ideal S1024x16 .f32) (p : Fin 128) (r : Fin 16) :
    matmul dot_S128x1024_S1024x16_S128x16_1_0_0_1_n_n (some .fp32) x a (constant (F := Ideal) S128x16 .f32 0x00000000#32) (ix2 p r)
      = ∑ k : Fin 1024, x (ix2 p k) * a (ix2 k r) :=
  Cert.LibMatmulPrec.matmul_zero_ix2_prec dot_S128x1024_S1024x16_S128x16_1_0_0_1_n_n (some .fp32) rfl rfl x a p r
    (fun k => ix2 p k) (fun k => ix2 k r)
    (fun k q' hq => funext fun ax => Fin.ext (by
      match ax with
      | ⟨0, _⟩ => exact lhs_down_0 _ _
      | ⟨1, _⟩ => exact (lhs_down_1 _ _).trans hq))
    (fun k q' hq => funext fun ax => Fin.ext (by
      match ax with
      | ⟨0, _⟩ => exact (rhs_down_0 _ _).trans hq
      | ⟨1, _⟩ => exact rhs_down_1 _ _))

/-- [128,16] times [16,4096] into zeros, at (p, q). -/
theorem up_apply (y : FVec Ideal S128x16 .f32) (b : FVec Ideal S16x4096 .f32) (p : Fin 128) (q : Fin 4096) :
    matmul dot_S128x16_S16x4096_S128x4096_1_0_0_1_n_n (some .fp32) y b (constant (F := Ideal) S128x4096 .f32 0x00000000#32) (ix2 p q)
      = ∑ r : Fin 16, y (ix2 p r) * b (ix2 r q) :=
  Cert.LibMatmulPrec.matmul_zero_ix2_prec dot_S128x16_S16x4096_S128x4096_1_0_0_1_n_n (some .fp32) rfl rfl y b p q
    (fun r => ix2 p r) (fun r => ix2 r q)
    (fun k q' hq => funext fun ax => Fin.ext (by
      match ax with
      | ⟨0, _⟩ => exact lhs_up_0 _ _
      | ⟨1, _⟩ => exact (lhs_up_1 _ _).trans hq))
    (fun k q' hq => funext fun ax => Fin.ext (by
      match ax with
      | ⟨0, _⟩ => exact (rhs_up_0 _ _).trans hq
      | ⟨1, _⟩ => exact rhs_up_1 _ _))

/-! ## The stored block at an entry -/

/-- Entry (u, p, q) of the stored block: the base row-times-column sum plus the bias, plus the low-rank double sum
    times the scaling word. -/
theorem pay_apply (x0 : Vec Ideal S1x128x1024 .f32) (x1 : Vec Ideal S1024x4096 .f32) (x2 : Vec Ideal S1x4096 .f32)
    (x3 : Vec Ideal S1x1024x16 .f32) (x4 : Vec Ideal S1x16x4096 .f32) (u : Fin 1) (p : Fin 128) (q : Fin 4096) :
    k0_pay1 (F := Ideal) x0 x1 x2 x3 x4 (ix3 u p q)
      = ((∑ i : Fin 1024, x0 (ix3 (0 : Fin 1) p i) * x1 (ix2 i q)) + x2 (ix2 (0 : Fin 1) q))
        + (∑ r : Fin 16, (∑ i : Fin 1024, x0 (ix3 (0 : Fin 1) p i) * x3 (ix3 (0 : Fin 1) i r)) * x4 (ix3 (0 : Fin 1) r q))
          * Cert.RoutedLora.one := by
  unfold k0_pay1
  refine (shapeCast_ab_1ab_apply _ _ u p q).trans ?_
  show (matmul dot_S128x1024_S1024x4096_S128x4096_1_0_0_1_n_n (some .fp32) (shapeCast S128x1024 x0 shapeCasts_S1x128x1024_S128x1024) x1
          (constant (F := Ideal) S128x4096 .f32 0x00000000#32) (ix2 p q)
        + broadcastTo S128x4096 (shapeCast S1x4096 x2 shapeCasts_S1x4096_S1x4096) broadcasts_S1x4096_S128x4096 (ix2 p q))
      + matmul dot_S128x16_S16x4096_S128x4096_1_0_0_1_n_n (some .fp32)
          (matmul dot_S128x1024_S1024x16_S128x16_1_0_0_1_n_n (some .fp32) (shapeCast S128x1024 x0 shapeCasts_S1x128x1024_S128x1024)
            (shapeCast S1024x16 x3 shapeCasts_S1x1024x16_S1024x16) (constant (F := Ideal) S128x16 .f32 0x00000000#32))
          (shapeCast S16x4096 x4 shapeCasts_S1x16x4096_S16x4096) (constant (F := Ideal) S128x4096 .f32 0x00000000#32) (ix2 p q)
        * Cert.RoutedLora.one = _
  rw [base_apply, up_apply, broadcastTo_1b_ab_apply, shapeCast_self]
  simp only [down_apply, shapeCast_1ab_ab_apply]

end Cert.KernelIdeal.BlockValue

end
-- ==== Proof.KernelValue.lean ====
/-
  What the kernel's result array holds after the run, over the extended reals: the routed layer of the arguments.

  The grid has 32 × 4 points; point t works on batch row t / 4 and on the 128 sequence positions of tile t % 4.
  At that point the hidden-state window holds rows [128 (t % 4), 128 (t % 4) + 128) of batch row t / 4, the weight
  and bias windows hold their whole arrays (the bias through the host's reshape to one row), and the two adapter
  windows hold the down- and up-projection of adapter ids[t / 4] — the block index their index maps read from the
  prefetched identifier table.  The body stores one [1,128,4096] block (read back from the one covering store), which
  by the entry-wise reading of the body is the routed layer on exactly the rows and columns the output window's
  block covers; the 128 blocks tile the [32,512,4096] result, so the array ends holding the routed layer.
-/
import proofs.«416401_j16707422781874_2_alg».proof.Proof.Gen.KernelIdeal.Frame
import proofs.«416401_j16707422781874_2_alg».proof.Proof.Spec
import proofs.«416401_j16707422781874_2_alg».proof.Proof.Block
import proofs.«416401_j16707422781874_2_alg».proof.Proof.TableOk
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The body's one store, read back -/

section Piece

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The output's staging buffer after the body holds the stored block: the payload of the loaded blocks (each load
    reads its whole staging buffer). -/
theorem out_A (c : Dev nD) (i : grid0.Coords) (arg3 : Memref sig .tc .vmem S1x128x1024 .f32) (harg3 : arg3.IsWhole)
    (arg4 : Memref sig .tc .vmem S1024x4096 .f32) (harg4 : arg4.IsWhole) (arg5 : Memref sig .tc .vmem S1x4096 .f32) (harg5 : arg5.IsWhole)
    (arg6 : Memref sig .tc .vmem S1x1024x16 .f32) (harg6 : arg6.IsWhole) (arg7 : Memref sig .tc .vmem S1x16x4096 .f32) (harg7 : arg7.IsWhole)
    (arg8 : Memref sig .tc .vmem S1x128x4096 .f32) (harg8 : arg8.IsWhole)
    (x0 : Vec F S1x128x1024 .f32) (x1 : Vec F S1024x4096 .f32) (x2 : Vec F S1x4096 .f32) (x3 : Vec F S1x1024x16 .f32)
    (x4 : Vec F S1x16x4096 .f32) (xt0 : TbBuf0 (F := F) c tbM0_0) :
    out0_A_5 c i arg3 harg3 arg4 harg4 arg5 harg5 arg6 harg6 arg7 harg7 arg8 harg8 x0 x1 x2 x3 x4 xt0 = k0_pay1 x0 x1 x2 x3 x4 := by
  unfold out0_A_5
  rw [View.read_writes_eq_canon _ _ _ (cover0_A_5 c i arg3 harg3 arg4 harg4 arg5 harg5 arg6 harg6 arg7 harg7 arg8 harg8 x0 x1 x2 x3 x4 xt0)]
  unfold kernelRun0_A
  dsimp only
  sl_unfold_words
  rw [View.canon_unit_zero hz3]
  simp only [View.readAt_eq_ld, harg3.read_unread, harg4.read_unread, harg5.read_unread, harg6.read_unread, harg7.read_unread,
    View.ld_unit_zero (S := S1x128x1024) hz3, View.ld_unit_zero (S := S1024x4096) hz2, View.ld_unit_zero (S := S1x4096) hz2,
    View.ld_unit_zero (S := S1x1024x16) hz3, View.ld_unit_zero (S := S1x16x4096) hz3]

end Piece

/-! ## The stored block is the routed layer on its rows and columns, given what the loaded blocks are -/

/-- If the loaded blocks are: rows of batch row b starting where row p of the block is sequence position s, the whole
    weights, the bias as one row, and adapter g's two projections, then entry (u, p, q) of the stored block is the
    routed layer's entry (b, s, q). -/
theorem block_is_routed (x0 : Vec Ideal S1x128x1024 .f32) (x1 : Vec Ideal S1024x4096 .f32) (x2 : Vec Ideal S1x4096 .f32)
    (x3 : Vec Ideal S1x1024x16 .f32) (x4 : Vec Ideal S1x16x4096 .f32)
    (h : FVec Ideal Cert.RoutedLora.SH .f32) (W : FVec Ideal Cert.RoutedLora.SW .f32) (bias : FVec Ideal Cert.RoutedLora.SBias .f32)
    (A : FVec Ideal Cert.RoutedLora.SA .f32) (B : FVec Ideal Cert.RoutedLora.SB .f32)
    (g : Fin 16) (b : Fin 32) (s : Fin 512) (u : Fin 1) (p : Fin 128) (q : Fin 4096)
    (e0 : ∀ i : Fin 1024, x0 (ix3 (0 : Fin 1) p i) = h (ix3 b s i))
    (e1 : ∀ i : Fin 1024, x1 (ix2 i q) = W (ix2 i q))
    (e2 : x2 (ix2 (0 : Fin 1) q) = bias (ix1 q))
    (e3 : ∀ (i : Fin 1024) (r : Fin 16), x3 (ix3 (0 : Fin 1) i r) = A (ix3 g i r))
    (e4 : ∀ r : Fin 16, x4 (ix3 (0 : Fin 1) r q) = B (ix3 g r q)) :
    k0_pay1 (F := Ideal) x0 x1 x2 x3 x4 (ix3 u p q) = Cert.RoutedLora.routedAt h W bias A B g b s q := by
  rw [Cert.KernelIdeal.BlockValue.pay_apply]
  unfold Cert.RoutedLora.routedAt
  simp only [e0, e1, e2, e3, e4]

/-! ## The windows' blocks at a point -/

variable (m : (ℓ : Loc nD τ sig) → Buf (Elt Ideal) ℓ) (hO : Ok m)

/-- The index maps that read no table, at every point of the grid: point t is batch row t / 4, sequence tile t % 4. -/
theorem gridFacts : ∀ t : Fin grid0.N, cc0_transform_0 (grid0.coords t) = ![t.val / 4, t.val % 4, 0]
    ∧ cc0_transform_5 (grid0.coords t) = ![t.val / 4, t.val % 4, 0]
    ∧ cc0_transform_1 (grid0.coords t) = ![0, 0] ∧ cc0_transform_2 (grid0.coords t) = ![0, 0]
    ∧ k0_off1 (grid0.coords t) = ![t.val / 4] := by decide +kernel

/-- The hidden-state block at point t: row p is sequence position 128 (t % 4) + p of batch row t / 4. -/
theorem hblk_apply (c : Dev nD) (t : Fin (cfgM m hO).N) (p : Fin 128) (i : Fin 1024) (hb : t.val / 4 < 32)
    (hs : t.val % 4 * 128 + p.val < 512) :
    (iblk m hO c 0 t : Vec Ideal S1x128x1024 .f32) (ix3 (0 : Fin 1) p i)
      = m ((c : Thread nD τ).loc main_arg0) (ix3 (⟨t.val / 4, hb⟩ : Fin 32) (⟨t.val % 4 * 128 + p.val, hs⟩ : Fin 512) i) := by
  show V m c main_arg0 ((((cfgM m hO).win 0).blk t).view.emb (ix3 (0 : Fin 1) p i)) = _
  rw [V_main_arg0]
  congr 1
  funext a
  apply Fin.ext
  obtain ⟨e0, -⟩ := gridFacts t
  match a with
  | ⟨0, _⟩ => show cc0_transform_0 (grid0.coords t) 0 * 1 + 1 * (0 : ℕ) = t.val / 4; rw [e0]; show t.val / 4 * 1 + 1 * 0 = t.val / 4; omega
  | ⟨1, _⟩ => show cc0_transform_0 (grid0.coords t) 1 * 128 + 1 * p.val = t.val % 4 * 128 + p.val; rw [e0]; show t.val % 4 * 128 + 1 * p.val = _; omega
  | ⟨2, _⟩ => show cc0_transform_0 (grid0.coords t) 2 * 1024 + 1 * i.val = i.val; rw [e0]; show 0 * 1024 + 1 * i.val = i.val; omega

/-- The weight block at every point is the whole weight matrix. -/
theorem wblk_apply (c : Dev nD) (t : Fin (cfgM m hO).N) (i : Fin 1024) (q : Fin 4096) :
    (iblk m hO c 1 t : Vec Ideal S1024x4096 .f32) (ix2 i q) = m ((c : Thread nD τ).loc main_arg2) (ix2 i q) := by
  show V m c main_arg2 ((((cfgM m hO).win 1).blk t).view.emb (ix2 i q)) = _
  rw [V_main_arg2]
  congr 1
  funext a
  apply Fin.ext
  obtain ⟨-, -, e1, -⟩ := gridFacts t
  match a with
  | ⟨0, _⟩ => show cc0_transform_1 (grid0.coords t) 0 * 1024 + 1 * i.val = i.val; rw [e1]; show 0 * 1024 + 1 * i.val = i.val; omega
  | ⟨1, _⟩ => show cc0_transform_1 (grid0.coords t) 1 * 4096 + 1 * q.val = q.val; rw [e1]; show 0 * 4096 + 1 * q.val = q.val; omega

/-- The bias row the region finds: the host's reshape of the bias vector to one row. -/
theorem V_bias (c : Dev nD) :
    (V m c main_v0 : S1x4096.Idx → Ideal .f32) = shapeCast S1x4096 (m ((c : Thread nD τ).loc main_arg3)) shapeCasts_S4096_S1x4096 := by
  dsimp only [V, hostOps0]
  after_results
  rfl

/-- The bias block at every point is the bias vector as one row. -/
theorem bblk_apply (c : Dev nD) (t : Fin (cfgM m hO).N) (q : Fin 4096) :
    (iblk m hO c 2 t : Vec Ideal S1x4096 .f32) (ix2 (0 : Fin 1) q) = m ((c : Thread nD τ).loc main_arg3) (ix1 q) := by
  show V m c main_v0 ((((cfgM m hO).win 2).blk t).view.emb (ix2 (0 : Fin 1) q)) = _
  have e : (((cfgM m hO).win 2).blk t).view.emb (ix2 (0 : Fin 1) q) = ix2 (0 : Fin 1) q := by
    funext a
    apply Fin.ext
    obtain ⟨-, -, -, e2, -⟩ := gridFacts t
    match a with
    | ⟨0, _⟩ => show cc0_transform_2 (grid0.coords t) 0 * 1 + 1 * (0 : ℕ) = 0; rw [e2]; show 0 * 1 + 1 * 0 = 0; omega
    | ⟨1, _⟩ => show cc0_transform_2 (grid0.coords t) 1 * 4096 + 1 * q.val = q.val; rw [e2]; show 0 * 4096 + 1 * q.val = q.val; omega
  rw [e, V_bias]
  exact shapeCast_a_1a_apply _ _ (0 : Fin 1) q

/-! ## The adapter windows: the table word and the blocks it selects -/

/-- A one-word rectangle of the identifier table at offset k is the table's index k. -/
theorem unit_emb_ix1 (off : Fin 1 → Nat) (inb : ∀ a, off a + S1.size a ≤ S32.size a) (y : S1.Idx) (k : Fin 32)
    (hk : off 0 = k.val) : (Rect.unit (s := S32) off S1.size inb).emb y = ix1 k := by
  funext a
  apply Fin.ext
  match a with
  | ⟨0, _⟩ =>
    show off 0 + 1 * (y 0).val = k.val
    have hy : (y 0).val < 1 := (y 0).isLt
    omega

/-- The table word an index map reads at point t — through a one-word rectangle at the offset the map computes from
    the point's first coordinate — is the identifier of batch row t / 4 as launched. -/
theorem table_word (t : Fin (cfgM m hO).N) (hb : t.val / 4 < 32) (y : S1.Idx) :
    (tbl m 0 : S32.Idx → BitVec 32)
        ((Rect.unit (s := S32) (k0_off1 (grid0.coords t)) S1.size (k0_off1_inb (grid0.coords t))).emb y)
      = m (((0 : Dev nD) : Thread nD τ).loc main_arg1) (ix1 (⟨t.val / 4, hb⟩ : Fin 32)) := by
  obtain ⟨-, -, -, -, ek⟩ := gridFacts t
  have e : (Rect.unit (s := S32) (k0_off1 (grid0.coords t)) S1.size (k0_off1_inb (grid0.coords t))).emb y
      = ix1 (⟨t.val / 4, hb⟩ : Fin 32) :=
    unit_emb_ix1 (k0_off1 (grid0.coords t)) (k0_off1_inb (grid0.coords t)) y (⟨t.val / 4, hb⟩ : Fin 32) (by rw [ek]; rfl)
  rw [e]
  exact congrFun (Cert.KernelIdeal.TableOk.tbl_eq m) _

/-- The block index the down-projection window's index map computes at point t: the identifier of batch row t / 4,
    read unsigned, along the adapter axis, and 0 along the other two. -/
theorem word_A (t : Fin (cfgM m hO).N) (hb : t.val / 4 < 32) :
    cc0_transform_3 k0_off1_inb numel1_S1 (tbl m) (grid0.coords t)
      = ![(m (((0 : Dev nD) : Thread nD τ).loc main_arg1) (ix1 (⟨t.val / 4, hb⟩ : Fin 32))).toNat, 0, 0] := by
  funext a
  match a with
  | ⟨0, _⟩ => exact congrArg BitVec.toNat (table_word m hO t hb _)
  | ⟨1, _⟩ => rfl
  | ⟨2, _⟩ => rfl

/-- The same for the up-projection window. -/
theorem word_B (t : Fin (cfgM m hO).N) (hb : t.val / 4 < 32) :
    cc0_transform_4 k0_off1_inb numel1_S1 (tbl m) (grid0.coords t)
      = ![(m (((0 : Dev nD) : Thread nD τ).loc main_arg1) (ix1 (⟨t.val / 4, hb⟩ : Fin 32))).toNat, 0, 0] := by
  funext a
  match a with
  | ⟨0, _⟩ => exact congrArg BitVec.toNat (table_word m hO t hb _)
  | ⟨1, _⟩ => rfl
  | ⟨2, _⟩ => rfl

/-- The down-projection block at point t is the whole [1024,16] down-projection of the adapter g whose number is the
    identifier of batch row t / 4. -/
theorem ablk_apply (c : Dev nD) (t : Fin (cfgM m hO).N) (hb : t.val / 4 < 32) (g : Fin 16)
    (hg : g.val = (m (((0 : Dev nD) : Thread nD τ).loc main_arg1) (ix1 (⟨t.val / 4, hb⟩ : Fin 32))).toNat)
    (i : Fin 1024) (r : Fin 16) :
    (iblk m hO c 3 t : Vec Ideal S1x1024x16 .f32) (ix3 (0 : Fin 1) i r) = m ((c : Thread nD τ).loc main_arg4) (ix3 g i r) := by
  show V m c main_arg4 ((((cfgM m hO).win 3).blk t).view.emb (ix3 (0 : Fin 1) i r)) = _
  rw [V_main_arg4]
  congr 1
  funext a
  apply Fin.ext
  have ew := word_A m hO t hb
  match a with
  | ⟨0, _⟩ =>
    show cc0_transform_3 k0_off1_inb numel1_S1 (tbl m) (grid0.coords t) 0 * 1 + 1 * (0 : ℕ) = g.val
    have e0 : cc0_transform_3 k0_off1_inb numel1_S1 (tbl m) (grid0.coords t) 0
        = (m (((0 : Dev nD) : Thread nD τ).loc main_arg1) (ix1 (⟨t.val / 4, hb⟩ : Fin 32))).toNat := congrFun ew 0
    rw [e0, hg]
    omega
  | ⟨1, _⟩ =>
    show cc0_transform_3 k0_off1_inb numel1_S1 (tbl m) (grid0.coords t) 1 * 1024 + 1 * i.val = i.val
    rw [ew]
    show 0 * 1024 + 1 * i.val = i.val
    omega
  | ⟨2, _⟩ =>
    show cc0_transform_3 k0_off1_inb numel1_S1 (tbl m) (grid0.coords t) 2 * 16 + 1 * r.val = r.val
    rw [ew]
    show 0 * 16 + 1 * r.val = r.val
    omega

/-- The up-projection block at point t is the whole [16,4096] up-projection of that adapter. -/
theorem ublk_apply (c : Dev nD) (t : Fin (cfgM m hO).N) (hb : t.val / 4 < 32) (g : Fin 16)
    (hg : g.val = (m (((0 : Dev nD) : Thread nD τ).loc main_arg1) (ix1 (⟨t.val / 4, hb⟩ : Fin 32))).toNat)
    (r : Fin 16) (q : Fin 4096) :
    (iblk m hO c 4 t : Vec Ideal S1x16x4096 .f32) (ix3 (0 : Fin 1) r q) = m ((c : Thread nD τ).loc main_arg5) (ix3 g r q) := by
  show V m c main_arg5 ((((cfgM m hO).win 4).blk t).view.emb (ix3 (0 : Fin 1) r q)) = _
  rw [V_main_arg5]
  congr 1
  funext a
  apply Fin.ext
  have ew := word_B m hO t hb
  match a with
  | ⟨0, _⟩ =>
    show cc0_transform_4 k0_off1_inb numel1_S1 (tbl m) (grid0.coords t) 0 * 1 + 1 * (0 : ℕ) = g.val
    have e0 : cc0_transform_4 k0_off1_inb numel1_S1 (tbl m) (grid0.coords t) 0
        = (m (((0 : Dev nD) : Thread nD τ).loc main_arg1) (ix1 (⟨t.val / 4, hb⟩ : Fin 32))).toNat := congrFun ew 0
    rw [e0, hg]
    omega
  | ⟨1, _⟩ =>
    show cc0_transform_4 k0_off1_inb numel1_S1 (tbl m) (grid0.coords t) 1 * 16 + 1 * r.val = r.val
    rw [ew]
    show 0 * 16 + 1 * r.val = r.val
    omega
  | ⟨2, _⟩ =>
    show cc0_transform_4 k0_off1_inb numel1_S1 (tbl m) (grid0.coords t) 2 * 4096 + 1 * q.val = q.val
    rw [ew]
    show 0 * 4096 + 1 * q.val = q.val
    omega

/-! ## The result array -/

/-- The routed layer of the arguments as launched on device c. -/
abbrev result (c : Dev nD) : Buf (Elt Ideal) ((c : Thread nD τ).loc main_v1) :=
  Cert.RoutedLora.routed (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The grid has 128 points, at any contents of the table. -/
theorem lt_N (t : Fin (cfgM m hO).N) : t.val < 128 := by
  exact Nat.lt_of_lt_of_eq t.isLt (N_0 : (cfgM m hO).N = 128)

/-- Where the output block's entry (u, p, q) sits in the result at point t. -/
theorem oemb (t : Fin (cfgM m hO).N) (u : Fin 1) (p : Fin 128) (q : Fin 4096) (hb : t.val / 4 < 32)
    (hs : t.val % 4 * 128 + p.val < 512) :
    (((cfgM m hO).win 5).blk t).view.emb (ix3 u p q) = ix3 (⟨t.val / 4, hb⟩ : Fin 32) (⟨t.val % 4 * 128 + p.val, hs⟩ : Fin 512) q := by
  funext a
  apply Fin.ext
  obtain ⟨-, e5, -⟩ := gridFacts t
  have hu : u.val < 1 := u.isLt
  match a with
  | ⟨0, _⟩ => show cc0_transform_5 (grid0.coords t) 0 * 1 + 1 * u.val = t.val / 4; rw [e5]; show t.val / 4 * 1 + 1 * u.val = _; omega
  | ⟨1, _⟩ => show cc0_transform_5 (grid0.coords t) 1 * 128 + 1 * p.val = t.val % 4 * 128 + p.val; rw [e5]; show t.val % 4 * 128 + 1 * p.val = _; omega
  | ⟨2, _⟩ => show cc0_transform_5 (grid0.coords t) 2 * 4096 + 1 * q.val = q.val; rw [e5]; show 0 * 4096 + 1 * q.val = q.val; omega

/-- WHAT POINT t WRITES BACK is the routed layer read through the point's block, when every identifier is in
    [0, 16). -/
theorem flushed_eq (hR : ∀ i, 0 ≤ (m (((0 : Dev nD) : Thread nD τ).loc main_arg1) i).toInt
      ∧ (m (((0 : Dev nD) : Thread nD τ).loc main_arg1) i).toInt < 16) (c : Dev nD) (t : Fin (cfgM m hO).N) :
    (dats m hO 0 c).flushed 5 t = (((cfgM m hO).win 5).blk t).view.read (Elt Ideal) (result m c) := by
  obtain rfl : c = 0 := Subsingleton.elim _ _
  show ((cfgM m hO).win 5).cut (grid0.coords t) ((dats m hO 0 0).after 5 t) = _
  rw [after0_5]
  refine funext fun (j : S1x128x4096.Idx) => ?_
  obtain ⟨u, p, q, rfl⟩ : ∃ (u : Fin 1) (p : Fin 128) (q : Fin 4096), j = ix3 u p q := ⟨j 0, j 1, j 2, eq_ix3 j⟩
  have hN := lt_N m hO t
  have hb : t.val / 4 < 32 := by omega
  have hs : t.val % 4 * 128 + p.val < 512 := by have := p.isLt; omega
  show outsAt0 m hO 0 t (ix3 u p q) = result m 0 ((((cfgM m hO).win 5).blk t).view.emb (ix3 u p q))
  unfold outsAt0
  refine (congrFun (out_A (F := Ideal) 0 (grid0.coords t) (ms0_0 m hO t) (hs0_0 m hO t) (ms0_1 m hO t) (hs0_1 m hO t)
    (ms0_2 m hO t) (hs0_2 m hO t) (ms0_3 m hO t) (hs0_3 m hO t) (ms0_4 m hO t) (hs0_4 m hO t) (ms0_5 m hO t) (hs0_5 m hO t)
    (iblk m hO 0 0 t) (iblk m hO 0 1 t) (iblk m hO 0 2 t) (iblk m hO 0 3 t) (iblk m hO 0 4 t) (tbl m 0)) (ix3 u p q)).trans ?_
  rw [oemb m hO t u p q hb hs]
  refine (block_is_routed (iblk m hO 0 0 t) (iblk m hO 0 1 t) (iblk m hO 0 2 t) (iblk m hO 0 3 t) (iblk m hO 0 4 t)
    (m (((0 : Dev nD) : Thread nD τ).loc main_arg0)) (m (((0 : Dev nD) : Thread nD τ).loc main_arg2))
    (m (((0 : Dev nD) : Thread nD τ).loc main_arg3)) (m (((0 : Dev nD) : Thread nD τ).loc main_arg4))
    (m (((0 : Dev nD) : Thread nD τ).loc main_arg5))
    (Cert.RoutedLora.adapterOf (m (((0 : Dev nD) : Thread nD τ).loc main_arg1)) (⟨t.val / 4, hb⟩ : Fin 32))
    (⟨t.val / 4, hb⟩ : Fin 32) (⟨t.val % 4 * 128 + p.val, hs⟩ : Fin 512) u p q
    (fun i => hblk_apply m hO 0 t p i hb hs) (fun i => wblk_apply m hO 0 t i q) (bblk_apply m hO 0 t q)
    (fun i r => ablk_apply m hO 0 t hb _ (Cert.RoutedLora.adapterOf_val _ _ (hR _).1 (hR _).2) i r)
    (fun r => ublk_apply m hO 0 t hb _ (Cert.RoutedLora.adapterOf_val _ _ (hR _).1 (hR _).2) r q)).trans ?_
  rfl

/-- An index that is the image of a block index under a view's embedding is one of the view's indices. -/
theorem mem_set_of_emb_eq {sg : RefSig} {κ : Kind} {sp : Space} {S : Shape} {e : EltTy} (v : View sg κ sp S e) (y : S.Idx)
    (i : v.ty.Idx) (h : v.emb y = i) : i ∈ v.set := h ▸ v.emb_mem_set y

/-- Where the output block's entry (u, p, q) sits in the result at point t, for a batch row and a sequence position
    given by their values. -/
theorem oemb_of (t : Fin (cfgM m hO).N) (u : Fin 1) (p : Fin 128) (q : Fin 4096) (b : Fin 32) (s : Fin 512)
    (hb : b.val = t.val / 4) (hs : s.val = t.val % 4 * 128 + p.val) :
    (((cfgM m hO).win 5).blk t).view.emb (ix3 u p q) = ix3 b s q := by
  have hN := lt_N m hO t
  have hb' : t.val / 4 < 32 := by omega
  have hs' : t.val % 4 * 128 + p.val < 512 := by have := p.isLt; omega
  rw [oemb m hO t u p q hb' hs']
  exact congrArg₂ (fun (x : Fin 32) (y : Fin 512) => ix3 x y q) (Fin.ext hb.symm) (Fin.ext hs.symm)

/-- Every entry of the result is in the block of the point of its batch row and sequence tile: entry (b, s, o) is
    entry (0, s % 128, o) of the block of point 4 b + s / 128. -/
theorem cover (i : S32x512x4096.Idx) :
    ∃ t : Fin (cfgM m hO).N, ((cfgM m hO).win 5).flush t = true ∧ i ∈ (((cfgM m hO).win 5).blk t).view.set := by
  have h0 : (i 0).val < 32 := (i 0).isLt
  have h1 : (i 1).val < 512 := (i 1).isLt
  have hp : (i 1).val % 128 < 128 := Nat.mod_lt _ (by decide)
  obtain ⟨t, ht⟩ : ∃ t : Fin (cfgM m hO).N, t.val = (i 0).val * 4 + (i 1).val / 128 :=
    ⟨⟨(i 0).val * 4 + (i 1).val / 128,
      Nat.lt_of_lt_of_eq (by omega : (i 0).val * 4 + (i 1).val / 128 < 128) (N_0 : (cfgM m hO).N = 128).symm⟩, rfl⟩
  refine ⟨t, flush0_5 (adm m hO) t, ?_⟩
  have e : ((((cfgM m hO).win 5).blk t).view.emb (ix3 (0 : Fin 1) (⟨(i 1).val % 128, hp⟩ : Fin 128) (i 2)) : S32x512x4096.Idx)
      = ix3 (i 0) (i 1) (i 2) :=
    oemb_of m hO t (0 : Fin 1) (⟨(i 1).val % 128, hp⟩ : Fin 128) (i 2) (i 0) (i 1)
      (by rw [ht]; omega) (by rw [ht]; show (i 1).val = _ % 4 * 128 + (i 1).val % 128; omega)
  have hi : ((((cfgM m hO).win 5).blk t).view.emb (ix3 (0 : Fin 1) (⟨(i 1).val % 128, hp⟩ : Fin 128) (i 2)) : S32x512x4096.Idx) = i :=
    e.trans (eq_ix3 i).symm
  exact mem_set_of_emb_eq (((cfgM m hO).win 5).blk t).view (ix3 (0 : Fin 1) (⟨(i 1).val % 128, hp⟩ : Fin 128) (i 2)) i hi

/-- So the result array ends holding the routed layer. -/
theorem final (hR : ∀ i, 0 ≤ (m (((0 : Dev nD) : Thread nD τ).loc main_arg1) i).toInt
      ∧ (m (((0 : Dev nD) : Thread nD τ).loc main_arg1) i).toInt < 16) (c : Dev nD) :
    (dats m hO 0 c).arrAt 5 (cfgM m hO).N = result m c :=
  (dats m hO 0 c).arrAt_eq_of_cover 5 (result m c) (fun t _ => flushed_eq m hO hR c t) (cover m hO)

/-- The run, read: the result array at the routed layer of the arguments, the arguments unchanged. -/
theorem run (hO : Ok m) (ρ : Dev nD → PrngReg) (hR : ∀ i, 0 ≤ (m (((0 : Dev nD) : Thread nD τ).loc main_arg1) i).toInt
      ∧ (m (((0 : Dev nD) : Thread nD τ).loc main_arg1) i).toInt < 16) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 5).trans (final m hO hR c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c))),
      ((h c).2 main_arg3 (by decide : main_arg3 ∈ Pipeline.restRefs sig spec0)).trans (V_main_arg3 m c),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end Cert.KernelIdeal.KValue

end
-- ==== Proof.LibRowGather.lean ====
/-
  A row gather read at an entry.

  `x[idx]` for an integer vector `idx : [R]` and an operand `x` whose LEADING axis is gathered lowers to
  `stablehlo.gather` with the start indices reshaped to `[R, 1]` (index vector on axis 1), the leading operand axis
  collapsed and named by the start index map, and every other operand axis an offset axis taken whole.  Result row
  `r` is then operand row `idx[r, 0]`, read as a signed integer and clamped into `[0, N − 1]` (StableHLO clamps
  every start index so that the slice fits), and the remaining coordinates pass through unchanged.  Stated for an
  operand of rank three (`[N, A, B]`, result `[R, A, B]`) and of rank two (`[N, B]`, result `[R, B]`).
-/
import Idealize.ShloMosaic.Lib.ValueIdx

noncomputable section

namespace Cert.LibRowGather

open Idealize.ShloMosaic Idealize.ShloMosaic.ValueIdx

variable {α : Type}

/-- The dimension numbers of a leading-axis row gather out of `[N, A, B]` by start indices `[R, 1]`. -/
abbrev rowDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Result entry `(r, a, b)` of the row gather is operand entry `(clamp idx[r, 0], a, b)`. -/
theorem rowGather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rowDims3 N A B R wf) x idx (ix3 r a b)
      = x (ix3 ⟨min (idx (ix2 r (0 : Fin 1))).toInt.toNat (N - 1), by omega⟩ a b) := by
  unfold Host.gather
  congr 1
  funext ax
  refine Fin.ext ?_
  show (rowDims3 N A B R wf).start (ix3 r a b) idx ax + (rowDims3 N A B R wf).batchCoord (ix3 r a b) ax
    + (rowDims3 N A B R wf).offCoord (ix3 r a b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 3) ∈ (rowDims3 N A B R wf).startIndexMap from List.mem_singleton.mpr rfl)]
    have hsi : (rowDims3 N A B R wf).siIdx (ix3 r a b) ⟨List.idxOf (⟨0, by decide⟩ : Fin 3) (rowDims3 N A B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl
  | ⟨2, _⟩ =>
    unfold GatherDims.start
    rw [dif_neg (fun h => absurd (congrArg Fin.val (List.mem_singleton.mp h)) (Nat.succ_ne_zero _)), Nat.zero_add]
    rfl

/-- The dimension numbers of a leading-axis row gather out of `[N, B]` by start indices `[R, 1]`. -/
abbrev rowDims2 (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- Result entry `(r, b)` of the row gather is operand entry `(clamp idx[r, 0], b)`. -/
theorem rowGather2_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (r : Fin R) (b : Fin B) :
    Host.gather (rowDims2 N B R wf) x idx (ix2 r b)
      = x (ix2 ⟨min (idx (ix2 r (0 : Fin 1))).toInt.toNat (N - 1), by omega⟩ b) := by
  unfold Host.gather
  congr 1
  funext ax
  refine Fin.ext ?_
  show (rowDims2 N B R wf).start (ix2 r b) idx ax + (rowDims2 N B R wf).batchCoord (ix2 r b) ax
    + (rowDims2 N B R wf).offCoord (ix2 r b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ (rowDims2 N B R wf).startIndexMap from List.mem_singleton.mpr rfl)]
    have hsi : (rowDims2 N B R wf).siIdx (ix2 r b) ⟨List.idxOf (⟨0, by decide⟩ : Fin 2) (rowDims2 N B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl

end Cert.LibRowGather

end
-- ==== Proof.RefValue.lean ====
/-
  The reference computes the routed layer.

  Read one operation at a time at an entry (b, s, o): the base product is the sum over i of h[b,s,i] · W[i,o], the bias
  is broadcast to every (b, s), the low-rank term is a batched product over r of (a batched product over i of
  h[b,s,i] · A'[b,i,r]) with B'[b,r,o], times the scaling word, where A' and B' gather one adapter per batch row.  The
  gather wraps a negative identifier by 16 and clamps the result into [0, 15]; for an identifier that is not negative
  the wrap does nothing, so the row gathered is the one the layer's definition routes b to.
-/
import proofs.«416401_j16707422781874_2_alg».proof.Proof.Gen.ReferenceIdeal.Run
import proofs.«416401_j16707422781874_2_alg».proof.Proof.Gen.ReferenceIdeal.Read
import proofs.«416401_j16707422781874_2_alg».proof.Proof.Spec
import proofs.«416401_j16707422781874_2_alg».proof.Proof.LibRowGather
import Idealize.ShloMosaic.Lib.Affine

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The indices the generated reading composes, as coordinates -/

theorem lidx_v0 (b : Fin 32) (s : Fin 512) (o : Fin 4096) (k : Fin 1024) : lidx_main_v0 (ix3 b s o) k = ix3 b s k :=
  funext fun a => Fin.ext (by match a with | ⟨0, _⟩ => rfl | ⟨1, _⟩ => rfl | ⟨2, _⟩ => rfl)
theorem ridx_v0 (b : Fin 32) (s : Fin 512) (o : Fin 4096) (k : Fin 1024) : ridx_main_v0 (ix3 b s o) k = ix2 k o :=
  funext fun a => Fin.ext (by match a with | ⟨0, _⟩ => rfl | ⟨1, _⟩ => rfl)
theorem idx_bias (b : Fin 32) (s : Fin 512) (o : Fin 4096) : idx_main_v1 (idx_main_v2 (ix3 b s o)) = ix1 o :=
  funext fun a => Fin.ext (by match a with | ⟨0, _⟩ => rfl)
theorem lidx_v19 (b : Fin 32) (s : Fin 512) (o : Fin 4096) (r : Fin 16) : lidx_main_v19 (ix3 b s o) r = ix3 b s r :=
  funext fun a => Fin.ext (by match a with | ⟨0, _⟩ => rfl | ⟨1, _⟩ => rfl | ⟨2, _⟩ => rfl)
theorem ridx_v19 (b : Fin 32) (s : Fin 512) (o : Fin 4096) (r : Fin 16) : ridx_main_v19 (ix3 b s o) r = ix3 b r o :=
  funext fun a => Fin.ext (by match a with | ⟨0, _⟩ => rfl | ⟨1, _⟩ => rfl | ⟨2, _⟩ => rfl)
theorem lidx_v18 (b : Fin 32) (s : Fin 512) (r : Fin 16) (k : Fin 1024) : lidx_main_v18 (ix3 b s r) k = ix3 b s k :=
  funext fun a => Fin.ext (by match a with | ⟨0, _⟩ => rfl | ⟨1, _⟩ => rfl | ⟨2, _⟩ => rfl)
theorem ridx_v18 (b : Fin 32) (s : Fin 512) (r : Fin 16) (k : Fin 1024) : ridx_main_v18 (ix3 b s r) k = ix3 b k r :=
  funext fun a => Fin.ext (by match a with | ⟨0, _⟩ => rfl | ⟨1, _⟩ => rfl | ⟨2, _⟩ => rfl)
theorem idx_col (b : Fin 32) : idx_main_v9 (ix2 b (0 : Fin 1)) = ix1 b :=
  funext fun a => Fin.ext (by match a with | ⟨0, _⟩ => rfl)
theorem idx_col' (b : Fin 32) : idx_main_v16 (ix2 b (0 : Fin 1)) = ix1 b :=
  funext fun a => Fin.ext (by match a with | ⟨0, _⟩ => rfl)

/-! ## The wrapped identifiers -/

/-- The wrap of negative words by 16 leaves a word that is not negative alone. -/
theorem wrap_id (w : BitVec 32) (h0 : 0 ≤ w.toInt) :
    Scalar.select (IntOp.cmpi .slt w 0#32) (IntOp.addi w 16#32) w = w := by
  have hz : IntOp.cmpi .slt w 0#32 = 0#1 := by
    refine eq_zero_of_ne_one fun e => ?_
    have h2 := IntOp.cmpi_slt.1 e
    have : (0#32 : BitVec 32).toInt = 0 := by decide
    omega
  rw [hz, select_zero]

/-- The start-index column of the first gather holds the identifiers themselves when none is negative. -/
theorem col_A (x1 : IVec S32 32) (h0 : ∀ i, 0 ≤ (x1 i).toInt) (b : Fin 32) :
    val_main_v9 (F := Ideal) x1 (ix2 b (0 : Fin 1)) = x1 (ix1 b) := by
  rw [val_main_v9_apply, idx_col, val_main_v8_apply, val_main_v5_apply, val_main_v7_apply, val_main_v4_apply,
    val_main_v6_apply, val_main_c_apply, val_main_c_0_apply]
  exact wrap_id _ (h0 _)

/-- The same for the second gather's column. -/
theorem col_B (x1 : IVec S32 32) (h0 : ∀ i, 0 ≤ (x1 i).toInt) (b : Fin 32) :
    val_main_v16 (F := Ideal) x1 (ix2 b (0 : Fin 1)) = x1 (ix1 b) := by
  rw [val_main_v16_apply, idx_col', val_main_v15_apply, val_main_v12_apply, val_main_v14_apply, val_main_v11_apply,
    val_main_v13_apply, val_main_c_1_apply, val_main_c_2_apply]
  exact wrap_id _ (h0 _)

/-! ## The two gathers -/

/-- Row b of the gathered down-projections is the down-projection of the adapter b is routed to. -/
theorem gather_A (x1 : IVec S32 32) (x4 : FVec Ideal S16x1024x16 .f32) (h0 : ∀ i, 0 ≤ (x1 i).toInt)
    (b : Fin 32) (k : Fin 1024) (r : Fin 16) :
    val_main_v10 (F := Ideal) x1 x4 (ix3 b k r) = x4 (ix3 (Cert.RoutedLora.adapterOf x1 b) k r) := by
  unfold val_main_v10
  refine (Cert.LibRowGather.rowGather3_apply (N := 16) (A := 1024) (B := 16) (R := 32) (by decide)
    gather_S16x1024x16_S32x1_S32x1024x16_12_0_n_n_0_1_1102416_wf x4 (val_main_v9 (F := Ideal) x1) b k r).trans ?_
  refine congrArg (fun g : Fin 16 => x4 (ix3 g k r)) (Fin.ext ?_)
  show min (BitVec.toInt (val_main_v9 (F := Ideal) x1 (ix2 b (0 : Fin 1)))).toNat (16 - 1) = min (x1 (ix1 b)).toInt.toNat 15
  rw [col_A x1 h0 b]

/-- Row b of the gathered up-projections is the up-projection of the adapter b is routed to. -/
theorem gather_B (x1 : IVec S32 32) (x5 : FVec Ideal S16x16x4096 .f32) (h0 : ∀ i, 0 ≤ (x1 i).toInt)
    (b : Fin 32) (r : Fin 16) (o : Fin 4096) :
    val_main_v17 (F := Ideal) x1 x5 (ix3 b r o) = x5 (ix3 (Cert.RoutedLora.adapterOf x1 b) r o) := by
  unfold val_main_v17
  refine (Cert.LibRowGather.rowGather3_apply (N := 16) (A := 16) (B := 4096) (R := 32) (by decide)
    gather_S16x16x4096_S32x1_S32x16x4096_12_0_n_n_0_1_1164096_wf x5 (val_main_v16 (F := Ideal) x1) b r o).trans ?_
  refine congrArg (fun g : Fin 16 => x5 (ix3 g r o)) (Fin.ext ?_)
  show min (BitVec.toInt (val_main_v16 (F := Ideal) x1 (ix2 b (0 : Fin 1)))).toNat (16 - 1) = min (x1 (ix1 b)).toInt.toNat 15
  rw [col_B x1 h0 b]

/-! ## The result -/

/-- The reference's result array is the routed layer of its arguments, when no identifier is negative. -/
theorem ref_eq (x0 : FVec Ideal S32x512x1024 .f32) (x1 : IVec S32 32) (x2 : FVec Ideal S1024x4096 .f32)
    (x3 : FVec Ideal S4096 .f32) (x4 : FVec Ideal S16x1024x16 .f32) (x5 : FVec Ideal S16x16x4096 .f32)
    (h0 : ∀ i, 0 ≤ (x1 i).toInt) :
    val_main_v22 (F := Ideal) x0 x1 x2 x3 x4 x5 = Cert.RoutedLora.routed x0 x1 x2 x3 x4 x5 := by
  funext j
  obtain ⟨b, s, o, rfl⟩ : ∃ (b : Fin 32) (s : Fin 512) (o : Fin 4096), j = ix3 b s o := ⟨j 0, j 1, j 2, eq_ix3 j⟩
  rw [Cert.RoutedLora.routed_ix3]
  rw [val_main_v22_apply, val_main_v3_apply, val_main_v0_apply, val_main_v2_apply, val_main_v1_apply, idx_bias,
    val_main_v21_apply, val_main_v19_apply, val_main_v20_apply, val_main_cst_apply]
  simp only [lidx_v0, ridx_v0, lidx_v19, ridx_v19, val_main_v18_apply, lidx_v18, ridx_v18, gather_A x1 x4 h0,
    gather_B x1 x5 h0]
  rfl

end Cert.ReferenceIdeal.RefValue

end
-- ==== Proof.lean ====
/-
  A routed low-rank-adapter layer: out = (h · W + bias) + ((h · A[id]) · B[id]) · (alpha / rank), the adapter of each
  batch row chosen by an integer identifier.  The kernel selects the adapter's two projections through the index maps of
  two windows that read the prefetched identifier table; the reference gathers them with jnp indexing.

  The precondition carries, beside the finiteness of the float inputs, the identifiers' range 0 ≤ id < 16 (16
  adapters).  It is needed already for the kernel to run at all: an identifier outside the range would place an adapter
  window's block outside its array, which is the launch's side condition on the table.

  Over the extended reals both programs then compute ONE function of the arguments, entry by entry, with the sums
  nested the same way on both sides (first over the input features onto the rank axis, then over the rank axis), so
  no law beyond the re-indexing of the sums is used and finiteness is not opened:
    · the kernel's result array is read off the generated frame run: the one covering store of each grid point read
      back, its payload read at an entry, the loaded blocks identified with entries of the arguments, and the 128
      output blocks tiling the result;
    · the reference's result is read one operation at a time from its generated run, the two gathers by hand: a
      non-negative identifier is not wrapped, and the clamp of an identifier below 16 is the identifier.
  The idealization rewrote nothing, so the preservation conjunct is trivial.
-/
import proofs.«416401_j16707422781874_2_alg».proof.Defs
import proofs.«416401_j16707422781874_2_alg».proof.Proof.Gen.Kernel
import proofs.«416401_j16707422781874_2_alg».proof.Proof.Gen.Kernel.Skeleton
import proofs.«416401_j16707422781874_2_alg».proof.Proof.Gen.Kernel.Launch
import proofs.«416401_j16707422781874_2_alg».proof.Proof.Gen.Kernel.Points
import proofs.«416401_j16707422781874_2_alg».proof.Proof.Gen.Kernel.Frame
import proofs.«416401_j16707422781874_2_alg».proof.Proof.Gen.KernelIdeal
import proofs.«416401_j16707422781874_2_alg».proof.Proof.Gen.KernelIdeal.Skeleton
import proofs.«416401_j16707422781874_2_alg».proof.Proof.Gen.KernelIdeal.Launch
import proofs.«416401_j16707422781874_2_alg».proof.Proof.Gen.KernelIdeal.Points
import proofs.«416401_j16707422781874_2_alg».proof.Proof.Gen.KernelIdeal.Frame
import proofs.«416401_j16707422781874_2_alg».proof.Proof.Gen.ReferenceIdeal
import proofs.«416401_j16707422781874_2_alg».proof.Proof.Gen.Pre_finite_inputs
import proofs.«416401_j16707422781874_2_alg».proof.Proof.Gen.ReferenceIdeal.Run
import proofs.«416401_j16707422781874_2_alg».proof.Proof.Gen.ReferenceIdeal.Read
import proofs.«416401_j16707422781874_2_alg».proof.Proof.TableOk
import proofs.«416401_j16707422781874_2_alg».proof.Proof.KernelValue
import proofs.«416401_j16707422781874_2_alg».proof.Proof.RefValue
import Idealize.ShloMosaic.Adequacy
import Idealize.ShloMosaic.Init

noncomputable section

namespace Cert.Proof

open Idealize.ShloMosaic Idealize.ShloMosaic.TcCoe Idealize.SL.Sem

/-- The program as printed runs and keeps its arguments: the identifiers' range gives the table's side condition. -/
theorem frame_k : Cert.frame_Kernel := fun m ρ h => Cert.Kernel.Gen.frame m ρ (Cert.RoutedLora.ok_of_pre_bits m h)

/-- The same for its idealization. -/
theorem frame_ki : Cert.frame_KernelIdeal := fun m ρ h => Cert.KernelIdeal.Gen.frame m ρ (Cert.RoutedLora.ok_of_pre_ideal m h)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the routed layer of the (agreeing) arguments in their result arrays. -/
theorem algebraic : Cert.algebraic_KernelIdeal_ReferenceIdeal := by
  intro m ρ m' ρ' hpre hagree
  have hR := Cert.RoutedLora.range_of_pre_ideal m hpre
  have hO := Cert.RoutedLora.ok_of_pre_ideal m hpre
  refine ⟨fun c => Cert.KernelIdeal.KValue.result m c, Cert.KernelIdeal.KValue.run m hO ρ hR, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  obtain ⟨a0, a1, a2, a3, a4, a5⟩ := hagree 0
  rw [Cert.ReferenceIdeal.Read.val_main_v22_eq, a0, a1, a2, a3, a4, a5]
  exact Cert.ReferenceIdeal.RefValue.ref_eq _ _ _ _ _ _ (fun i => (hR i).1)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
